-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4 : Shape := ⟨2, ![4096, 4]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4 : S_.BroadcastsInDim S4096x4 (![] : Fin 0 → Fin S4096x4.rank)
  reducesTo_S4096x4_S_d0_1 : S4096x4.ReducesTo [0, 1] S_

variable [Facts]

def fn {F : FTy → Type} [FloatOps F] (main_arg0 : FVec F S8192x4096 .f32) (main_arg1 : FVec F S4096x4 .f32) (main_arg2 : FVec F S4096x4 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4 .f32 := Host.absf main_arg1
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S4096x4 .f32 := Host.absf main_arg2
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  main_v13
-- ==== Kernel.lean ====
abbrev S8192x4096 : Shape := ⟨2, ![8192, 4096]⟩
abbrev S4096x4 : Shape := ⟨2, ![4096, 4]⟩
abbrev S512x4096 : Shape := ⟨2, ![512, 4096]⟩
abbrev S512x4 : Shape := ⟨2, ![512, 4]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4, .f32⟩
  | .hbm, ⟨2, _⟩ => ⟨S4096x4, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x4, .f32⟩
  | .local _ .vmem, ⟨3, _⟩ => ⟨S4096x4, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S4096x4_S4096x4_0_0 : ∀ a, (![0, 0] : Fin 2 → Nat) a + S4096x4.size a ≤ S4096x4.size a
  h_S4096x4 : 0 < S4096x4.numel
  dot_S512x4096_S4096x4_S512x4_1_0_0_1_n_n_wf : DotDims.WF S512x4096 S4096x4 S512x4 [1] [0] [0] [1] [] []
  dot_S512x4_S4096x4_S512x4096_1_1_0_0_n_n_wf : DotDims.WF S512x4 S4096x4 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S4096x4.size a
  hwx0_1 : ∀ i : grid0.Coords, EltTy.bits .f32 = 32 ∨ (Rect.block (s := S4096x4) S4096x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S4096x4.size a
  hwx0_2 : ∀ i : grid0.Coords, EltTy.bits .f32 = 32 ∨ (Rect.block (s := S4096x4) S4096x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x4096_S4096x4_S512x4_1_0_0_1_n_n : DotDims S512x4096 S4096x4 S512x4 where
  lhsContracting := [1]
  rhsContracting := [0]
  lhsNonContracting := [0]
  rhsNonContracting := [1]
  lhsBatch := []
  rhsBatch := []
  wf := dot_S512x4096_S4096x4_S512x4_1_0_0_1_n_n_wf
def dot_S512x4_S4096x4_S512x4096_1_1_0_0_n_n : DotDims S512x4 S4096x4 S512x4096 where
  lhsContracting := [1]
  rhsContracting := [1]
  lhsNonContracting := [0]
  rhsNonContracting := [0]
  lhsBatch := []
  rhsBatch := []
  wf := dot_S512x4_S4096x4_S512x4096_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4 : Shape := ⟨2, ![4096, 4]⟩
abbrev S4x4096 : Shape := ⟨2, ![4, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4, .f32⟩
  | .hbm, ⟨2, _⟩ => ⟨S4096x4, .f32⟩
  | .hbm, ⟨3, _⟩ => ⟨S4x4096, .f32⟩
  | .hbm, ⟨4, _⟩ => ⟨S4096x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4_S4x4096_1_0 : S4096x4.Transposes [1, 0] S4x4096
  bcast_S_S8192x4096 : S_.BroadcastsInDim S8192x4096 (![] : Fin 0 → Fin S8192x4096.rank)
  dot_S4096x4_S4x4096_S4096x4096_1_0_0_1_n_n_wf : DotDims.WF S4096x4 S4x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x4_S4x4096_S4096x4096_1_0_0_1_n_n : DotDims S4096x4 S4x4096 S4096x4096 where
  lhsContracting := [1]
  rhsContracting := [0]
  lhsNonContracting := [0]
  rhsNonContracting := [1]
  lhsBatch := []
  rhsBatch := []
  wf := dot_S4096x4_S4x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibThinFactor.lean ====
/-
  Reassociating a product through a thin middle factor, on the extended reals.

  For finitely many REAL numbers `a j`, `u j k`, `v k`,
      ∑ k, (∑ j, a j · u j k) · v k  =  ∑ j, a j · (∑ k, u j k · v k):
  both sides are the double sum of `a j · u j k · v k`.  On the extended reals the step needs the entries to be
  real (a product does not distribute over a sum that mixes `+∞` and `-∞`), so it is stated for entries that are
  coercions of reals, and then for entries each known to be one.
-/
import Idealize.ShloMosaic.PureOps.Ideal

open scoped BigOperators

namespace Cert.Lib.ThinFactor

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two groupings of `∑ a j · u j k · v k` agree, the entries being reals. -/
theorem thin_factor_real {J K : Type*} [Fintype J] [Fintype K] (a : J → ℝ) (u : J → K → ℝ) (v : K → ℝ) :
    (∑ k, (∑ j, (a j : EReal) * (u j k : EReal)) * (v k : EReal))
      = ∑ j, (a j : EReal) * ∑ k, (u j k : EReal) * (v k : EReal) := by
  simp only [← EReal.coe_mul, ← coe_sum]
  refine congrArg _ ?_
  simp only [Finset.sum_mul, Finset.mul_sum]
  rw [Finset.sum_comm]
  exact Finset.sum_congr rfl fun j _ => Finset.sum_congr rfl fun k _ => by ring

/-- The same for extended reals each of which is a real. -/
theorem thin_factor {J K : Type*} [Fintype J] [Fintype K] (a : J → EReal) (u : J → K → EReal) (v : K → EReal)
    (ha : ∀ j, ∃ r : ℝ, a j = r) (hu : ∀ j k, ∃ r : ℝ, u j k = r) (hv : ∀ k, ∃ r : ℝ, v k = r) :
    (∑ k, (∑ j, a j * u j k) * v k) = ∑ j, a j * ∑ k, u j k * v k := by
  choose a' ha using ha
  choose u' hu using hu
  choose v' hv using hv
  simp only [ha, hu, hv]
  exact thin_factor_real a' u' v'

end Cert.Lib.ThinFactor
-- ==== Proof.Update.lean ====
/-
  The rank-4 fast-weight update, as a function of the argument arrays.

  With `x : [8192, 4096]` and `U V : [4096, 4]`, the result's row `p` depends on row `p` of `x` alone:
      out p q = x p q + 1 · ∑ k < 4, (∑ j < 4096, x p j · U j k) · V q k        (through the thin factor `x U`),
  which, the entries being real, is
      out p q = x p q + 1 · ∑ j < 4096, x p j · (∑ k < 4, U j k · V q k)        (through the square matrix `U Vᵀ`).
  The scale `1` is kept as the word both programs print for it; it is the same word on both sides and is never
  evaluated.
-/
import Idealize.ShloMosaic.Lib.ValueIdx
import proofs.«158593_j82094004896067_1_alg».proof.Proof.LibThinFactor

noncomputable section

open scoped BigOperators

namespace Cert.FastWeights

open Idealize.ShloMosaic Idealize.ShloMosaic.ValueIdx Cert.Lib.ThinFactor

/-- One row's update through the thin factor: `row q + 1 · ∑ k, (∑ j, row j · U j k) · V q k`. -/
def rowThin (row : Fin 4096 → EReal) (U V : (⟨2, ![4096, 4]⟩ : Shape).Idx → EReal) (q : Fin 4096) : EReal :=
  row q + Ideal.ofBits .f32 0x3F800000#32 * ∑ k : Fin 4, (∑ j : Fin 4096, row j * U (ix2 j k)) * V (ix2 q k)

/-- One row's update through the square matrix: `row q + 1 · ∑ j, row j · (∑ k, U j k · V q k)`. -/
def rowDense (row : Fin 4096 → EReal) (U V : (⟨2, ![4096, 4]⟩ : Shape).Idx → EReal) (q : Fin 4096) : EReal :=
  row q + Ideal.ofBits .f32 0x3F800000#32 * ∑ j : Fin 4096, row j * ∑ k : Fin 4, U (ix2 j k) * V (ix2 q k)

/-- On real rows and factors the two groupings are one number. -/
theorem rowThin_eq_rowDense (row : Fin 4096 → EReal) (U V : (⟨2, ![4096, 4]⟩ : Shape).Idx → EReal) (q : Fin 4096)
    (hrow : ∀ j, ∃ r : ℝ, row j = r) (hU : ∀ i, ∃ r : ℝ, U i = r) (hV : ∀ i, ∃ r : ℝ, V i = r) :
    rowThin row U V q = rowDense row U V q := by
  unfold rowThin rowDense
  rw [thin_factor row (fun j k => U (ix2 j k)) (fun k => V (ix2 q k)) hrow (fun j k => hU _) (fun k => hV _)]

/-- The whole result array: entry `(p, q)` is row `p` of `x` updated, at column `q`. -/
def updated (x : (⟨2, ![8192, 4096]⟩ : Shape).Idx → EReal) (U V : (⟨2, ![4096, 4]⟩ : Shape).Idx → EReal) :
    (⟨2, ![8192, 4096]⟩ : Shape).Idx → EReal :=
  fun i => rowThin (fun j => x (ix2 (i 0) j)) U V (i 1)

theorem updated_apply (x : (⟨2, ![8192, 4096]⟩ : Shape).Idx → EReal) (U V : (⟨2, ![4096, 4]⟩ : Shape).Idx → EReal)
    (p : Fin 8192) (q : Fin 4096) : updated x U V (ix2 p q) = rowThin (fun j => x (ix2 p j)) U V q := rfl

end Cert.FastWeights

end
-- ==== Proof.Body.lean ====
/-
  The kernel body at one entry of its block.

  On a block `x0 : [512, 4096]` of rows of `x` and the whole factors `U V : [4096, 4]`, the body stores
      x0 + 1 · ((x0 U) Vᵀ),
  the two products taken by the matrix unit into zero accumulators.  Read at `(p, q)`:
      (x0 U) p k   = ∑ j < 4096, x0 p j · U j k           (contracting the block's columns with `U`'s rows),
      (t Vᵀ) p q   = ∑ k < 4,    t p k · V q k            (contracting the thin axis of both operands),
  so the stored entry is row `p` of the block updated through the thin factor, at column `q`.
-/
import proofs.«158593_j82094004896067_1_alg».proof.Proof.Gen.KernelIdeal.Skeleton
import Idealize.ShloMosaic.Lib.ValueIdx
import Idealize.ShloMosaic.PureOps.Ideal.Laws
import proofs.«158593_j82094004896067_1_alg».proof.Proof.Update

noncomputable section

open scoped BigOperators

namespace Cert.FastWeights.Body

open Cert.KernelIdeal Cert.KernelIdeal.Gen Idealize.ShloMosaic Idealize.ShloMosaic.ValueIdx Cert.FastWeights

/-! ## The first product: the block's columns against `U`'s rows -/

theorem lhs_xU_0 (i : S512x4.Idx) (q : dot_S512x4096_S4096x4_S512x4_1_0_0_1_n_n.contr.Idx) :
    (dot_S512x4096_S4096x4_S512x4_1_0_0_1_n_n.lhsIdx i q 0).val = (i 0).val := by
  unfold DotDims.lhsIdx
  rw [dif_neg (show ¬(0 : Fin S512x4096.rank) ∈ dot_S512x4096_S4096x4_S512x4_1_0_0_1_n_n.lhsBatch by decide), dif_pos (show (0 : Fin S512x4096.rank) ∈ dot_S512x4096_S4096x4_S512x4_1_0_0_1_n_n.lhsNonContracting by decide)]
  rfl
theorem lhs_xU_1 (i : S512x4.Idx) (q : dot_S512x4096_S4096x4_S512x4_1_0_0_1_n_n.contr.Idx) :
    (dot_S512x4096_S4096x4_S512x4_1_0_0_1_n_n.lhsIdx i q 1).val = (q ⟨0, by decide⟩).val :=
  dot_S512x4096_S4096x4_S512x4_1_0_0_1_n_n.lhsIdx_val_of_single rfl i q
theorem rhs_xU_0 (i : S512x4.Idx) (q : dot_S512x4096_S4096x4_S512x4_1_0_0_1_n_n.contr.Idx) :
    (dot_S512x4096_S4096x4_S512x4_1_0_0_1_n_n.rhsIdx i q 0).val = (q ⟨0, by decide⟩).val :=
  dot_S512x4096_S4096x4_S512x4_1_0_0_1_n_n.rhsIdx_val_of_single rfl i q
theorem rhs_xU_1 (i : S512x4.Idx) (q : dot_S512x4096_S4096x4_S512x4_1_0_0_1_n_n.contr.Idx) :
    (dot_S512x4096_S4096x4_S512x4_1_0_0_1_n_n.rhsIdx i q 1).val = (i 1).val := by
  unfold DotDims.rhsIdx
  rw [dif_neg (show ¬(1 : Fin S4096x4.rank) ∈ dot_S512x4096_S4096x4_S512x4_1_0_0_1_n_n.rhsBatch by decide), dif_pos (show (1 : Fin S4096x4.rank) ∈ dot_S512x4096_S4096x4_S512x4_1_0_0_1_n_n.rhsNonContracting by decide)]
  rfl

/-- `(x0 U) p k = ∑ j, x0 p j · U j k`. -/
theorem xU_apply (x0 : FVec Ideal S512x4096 .f32) (u : FVec Ideal S4096x4 .f32) (p : Fin 512) (k : Fin 4) :
    matmul dot_S512x4096_S4096x4_S512x4_1_0_0_1_n_n (some .fp32) x0 u (constant S512x4 .f32 0x00000000#32) (ix2 p k)
      = ∑ j : Fin 4096, x0 (ix2 p j) * u (ix2 j k) := by
  simp only [matmul]
  rw [Ideal.matmul_constant_zero_apply, ← Equiv.sum_comp (contrEquiv1 dot_S512x4096_S4096x4_S512x4_1_0_0_1_n_n 4096 rfl rfl).symm]
  refine Finset.sum_congr rfl fun j _ => ?_
  have hj := contrEquiv1_symm_val dot_S512x4096_S4096x4_S512x4_1_0_0_1_n_n 4096 rfl rfl j
  have el : dot_S512x4096_S4096x4_S512x4_1_0_0_1_n_n.lhsIdx (ix2 p k) ((contrEquiv1 dot_S512x4096_S4096x4_S512x4_1_0_0_1_n_n 4096 rfl rfl).symm j) = ix2 p j := funext fun a => Fin.ext (by
    match a with
    | ⟨0, _⟩ => exact lhs_xU_0 _ _
    | ⟨1, _⟩ => exact (lhs_xU_1 _ _).trans hj)
  have er : dot_S512x4096_S4096x4_S512x4_1_0_0_1_n_n.rhsIdx (ix2 p k) ((contrEquiv1 dot_S512x4096_S4096x4_S512x4_1_0_0_1_n_n 4096 rfl rfl).symm j) = ix2 j k := funext fun a => Fin.ext (by
    match a with
    | ⟨0, _⟩ => exact (rhs_xU_0 _ _).trans hj
    | ⟨1, _⟩ => exact rhs_xU_1 _ _)
  rw [el, er]

/-! ## The second product: the thin axis of `x0 U` against the thin axis of `V` -/

theorem lhs_tV_0 (i : S512x4096.Idx) (q : dot_S512x4_S4096x4_S512x4096_1_1_0_0_n_n.contr.Idx) :
    (dot_S512x4_S4096x4_S512x4096_1_1_0_0_n_n.lhsIdx i q 0).val = (i 0).val := by
  unfold DotDims.lhsIdx
  rw [dif_neg (show ¬(0 : Fin S512x4.rank) ∈ dot_S512x4_S4096x4_S512x4096_1_1_0_0_n_n.lhsBatch by decide), dif_pos (show (0 : Fin S512x4.rank) ∈ dot_S512x4_S4096x4_S512x4096_1_1_0_0_n_n.lhsNonContracting by decide)]
  rfl
theorem lhs_tV_1 (i : S512x4096.Idx) (q : dot_S512x4_S4096x4_S512x4096_1_1_0_0_n_n.contr.Idx) :
    (dot_S512x4_S4096x4_S512x4096_1_1_0_0_n_n.lhsIdx i q 1).val = (q ⟨0, by decide⟩).val :=
  dot_S512x4_S4096x4_S512x4096_1_1_0_0_n_n.lhsIdx_val_of_single rfl i q
theorem rhs_tV_0 (i : S512x4096.Idx) (q : dot_S512x4_S4096x4_S512x4096_1_1_0_0_n_n.contr.Idx) :
    (dot_S512x4_S4096x4_S512x4096_1_1_0_0_n_n.rhsIdx i q 0).val = (i 1).val := by
  unfold DotDims.rhsIdx
  rw [dif_neg (show ¬(0 : Fin S4096x4.rank) ∈ dot_S512x4_S4096x4_S512x4096_1_1_0_0_n_n.rhsBatch by decide), dif_pos (show (0 : Fin S4096x4.rank) ∈ dot_S512x4_S4096x4_S512x4096_1_1_0_0_n_n.rhsNonContracting by decide)]
  rfl
theorem rhs_tV_1 (i : S512x4096.Idx) (q : dot_S512x4_S4096x4_S512x4096_1_1_0_0_n_n.contr.Idx) :
    (dot_S512x4_S4096x4_S512x4096_1_1_0_0_n_n.rhsIdx i q 1).val = (q ⟨0, by decide⟩).val :=
  dot_S512x4_S4096x4_S512x4096_1_1_0_0_n_n.rhsIdx_val_of_single rfl i q

/-- `(t Vᵀ) p q = ∑ k, t p k · V q k`. -/
theorem tV_apply (t : FVec Ideal S512x4 .f32) (v : FVec Ideal S4096x4 .f32) (p : Fin 512) (q : Fin 4096) :
    matmul dot_S512x4_S4096x4_S512x4096_1_1_0_0_n_n (some .fp32) t v (constant S512x4096 .f32 0x00000000#32) (ix2 p q)
      = ∑ k : Fin 4, t (ix2 p k) * v (ix2 q k) := by
  simp only [matmul]
  rw [Ideal.matmul_constant_zero_apply, ← Equiv.sum_comp (contrEquiv1 dot_S512x4_S4096x4_S512x4096_1_1_0_0_n_n 4 rfl rfl).symm]
  refine Finset.sum_congr rfl fun k _ => ?_
  have hk := contrEquiv1_symm_val dot_S512x4_S4096x4_S512x4096_1_1_0_0_n_n 4 rfl rfl k
  have el : dot_S512x4_S4096x4_S512x4096_1_1_0_0_n_n.lhsIdx (ix2 p q) ((contrEquiv1 dot_S512x4_S4096x4_S512x4096_1_1_0_0_n_n 4 rfl rfl).symm k) = ix2 p k := funext fun a => Fin.ext (by
    match a with
    | ⟨0, _⟩ => exact lhs_tV_0 _ _
    | ⟨1, _⟩ => exact (lhs_tV_1 _ _).trans hk)
  have er : dot_S512x4_S4096x4_S512x4096_1_1_0_0_n_n.rhsIdx (ix2 p q) ((contrEquiv1 dot_S512x4_S4096x4_S512x4096_1_1_0_0_n_n 4 rfl rfl).symm k) = ix2 q k := funext fun a => Fin.ext (by
    match a with
    | ⟨0, _⟩ => exact rhs_tV_0 _ _
    | ⟨1, _⟩ => exact (rhs_tV_1 _ _).trans hk)
  rw [el, er]

/-! ## The stored entry -/

/-- Entry `(p, q)` of what the body stores is row `p` of the block, updated through the thin factor, at column `q`. -/
theorem stored_apply (x0 : Vec Ideal S512x4096 .f32) (u v : Vec Ideal S4096x4 .f32) (p : Fin 512) (q : Fin 4096) :
    k0_pay1 (F := Ideal) x0 u v (ix2 p q) = rowThin (fun j => x0 (ix2 p j)) u v q := by
  unfold k0_pay1 rowThin
  show x0 (ix2 p q) + Ideal.ofBits .f32 0x3F800000#32 *
      (matmul (F := Ideal) dot_S512x4_S4096x4_S512x4096_1_1_0_0_n_n (some .fp32)
        (matmul (F := Ideal) dot_S512x4096_S4096x4_S512x4_1_0_0_1_n_n (some .fp32) x0 u (constant (F := Ideal) S512x4 .f32 0x00000000#32)) v
        (constant (F := Ideal) S512x4096 .f32 0x00000000#32) (ix2 p q)) = _
  rw [tV_apply]
  simp only [xU_apply]

end Cert.FastWeights.Body

end
-- ==== Proof.KernelValue.lean ====
/-
  From the kernel's blocks to its result array.

  The grid has 16 points; point `t` stages rows `512·t … 512·t + 511` of `x` (all 4096 columns), the whole of `U` and
  of `V`, and writes back rows `512·t … 512·t + 511` of the result.  An entry of the result's row depends on that row
  of `x` only, so what point `t` writes back is block `t` of ONE function of the argument arrays, `updated`; the 16
  blocks tile the 8192 rows, so the array ends holding `updated` of the arguments.
-/
import proofs.«158593_j82094004896067_1_alg».proof.Proof.Gen.KernelIdeal.Value
import proofs.«158593_j82094004896067_1_alg».proof.Proof.Body

noncomputable section

open scoped BigOperators

namespace Cert.FastWeights.Kernel

open Cert.KernelIdeal Cert.KernelIdeal.Gen Cert.KernelIdeal.Value Idealize.ShloMosaic Idealize.ShloMosaic.TcCoe
  Idealize.SL.Sem Idealize.ShloMosaic.ValueIdx Cert.FastWeights
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays and the blocks, at their literal types -/

abbrev xarr (c : Dev nD) : Vec Ideal S8192x4096 .f32 := V m c main_arg0
abbrev uarr (c : Dev nD) : Vec Ideal S4096x4 .f32 := V m c main_arg1
abbrev varr (c : Dev nD) : Vec Ideal S4096x4 .f32 := V m c main_arg2
abbrev xblk (c : Dev nD) (t : Fin cfg0.N) : Vec Ideal S512x4096 .f32 := iblk m c 0 t
abbrev ublk (c : Dev nD) (t : Fin cfg0.N) : Vec Ideal S4096x4 .f32 := iblk m c 1 t
abbrev vblk (c : Dev nD) (t : Fin cfg0.N) : Vec Ideal S4096x4 .f32 := iblk m c 2 t

/-- The printed index maps over the grid: the `x` window and the result window sit on the same row block and on
    column block 0; the factor windows stay on block `(0, 0)`; the row block is below 16. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 :=
  (by decide +kernel : ∀ t : Fin grid0.N, _)

/-- Every row block is some point's. -/
theorem idx_onto : ∀ b : Fin 16, ∃ t : Fin cfg0.N, win0_3.index t (0 : Fin 2) = b.val :=
  (by decide +kernel : ∀ b : Fin 16, ∃ t : Fin grid0.N, win0_3.index t (0 : Fin 2) = b.val)

/-- Row `p` of the `x` block at point `t` is row `512 · (row block of t) + p` of `x`. -/
theorem xblk_apply (c : Dev nD) (t : Fin cfg0.N) (p : Fin 512) (j : Fin 4096) (r : Fin 8192)
    (hr : r.val = win0_3.index t (0 : Fin 2) * 512 + p.val) :
    xblk m c t (ix2 p j) = xarr m c (ix2 r j) := by
  obtain ⟨e0, e1, -, -, -, -, -, -⟩ := idx_facts t
  show iblk m c 0 t (ix2 p j) = V m c main_arg0 (ix2 r j)
  unfold iblk
  rw [View.read_apply]
  show V m c main_arg0 _ = V m c main_arg0 _
  congr 1
  funext a
  apply Fin.ext
  match a with
  | ⟨0, _⟩ => show win0_0.index t (0 : Fin 2) * 512 + 1 * p.val = r.val; omega
  | ⟨1, _⟩ => show win0_0.index t (1 : Fin 2) * 4096 + 1 * j.val = j.val; omega

/-- The `U` window's one block is `U`. -/
theorem ublk_eq (c : Dev nD) (t : Fin cfg0.N) : ublk m c t = uarr m c := by
  obtain ⟨-, -, -, e0, e1, -, -, -⟩ := idx_facts t
  funext y
  show iblk m c 1 t y = V m c main_arg1 y
  unfold iblk
  rw [View.read_apply]
  show V m c main_arg1 _ = V m c main_arg1 _
  congr 1
  funext a
  apply Fin.ext
  match a with
  | ⟨0, _⟩ => show win0_1.index t (0 : Fin 2) * 4096 + 1 * (y 0).val = (y 0).val; omega
  | ⟨1, _⟩ => show win0_1.index t (1 : Fin 2) * 4 + 1 * (y 1).val = (y 1).val; omega

/-- The `V` window's one block is `V`. -/
theorem vblk_eq (c : Dev nD) (t : Fin cfg0.N) : vblk m c t = varr m c := by
  obtain ⟨-, -, -, -, -, e0, e1, -⟩ := idx_facts t
  funext y
  show iblk m c 2 t y = V m c main_arg2 y
  unfold iblk
  rw [View.read_apply]
  show V m c main_arg2 _ = V m c main_arg2 _
  congr 1
  funext a
  apply Fin.ext
  match a with
  | ⟨0, _⟩ => show win0_2.index t (0 : Fin 2) * 4096 + 1 * (y 0).val = (y 0).val; omega
  | ⟨1, _⟩ => show win0_2.index t (1 : Fin 2) * 4 + 1 * (y 1).val = (y 1).val; omega

/-! ## What a point writes back -/

/-- WHAT POINT `t` WRITES BACK is block `t` of `updated` of the argument arrays as the region finds them. -/
theorem flushed_eq (c : Dev nD) (t : Fin cfg0.N) :
    (dats m 0 c).flushed 3 t
      = ((cfg0.win 3).blk t).view.read (Elt Ideal) (updated (xarr m c) (uarr m c) (varr m c)) := by
  rw [flushed3]
  unfold out0_3
  rw [View.canon_unit_zero hz]
  simp only [View.ld_unit_zero (S := S512x4096) hz, View.ld_unit_zero (S := S4096x4) hz]
  obtain ⟨-, -, e3, -, -, -, -, hb⟩ := idx_facts t
  funext y
  obtain ⟨p, q, rfl⟩ : ∃ (p : Fin 512) (q : Fin 4096), y = ix2 p q := ⟨y 0, y 1, eq_ix2 y⟩
  have hrow : win0_3.index t (0 : Fin 2) * 512 + p.val < 8192 := by have := p.isLt; omega
  have hemb : ((cfg0.win 3).blk t).view.emb (ix2 p q)
      = (ix2 (⟨win0_3.index t (0 : Fin 2) * 512 + p.val, hrow⟩ : Fin 8192) q : S8192x4096.Idx) := by
    funext a
    apply Fin.ext
    match a with
    | ⟨0, _⟩ => show win0_3.index t (0 : Fin 2) * 512 + 1 * p.val = win0_3.index t (0 : Fin 2) * 512 + p.val; omega
    | ⟨1, _⟩ => show win0_3.index t (1 : Fin 2) * 4096 + 1 * q.val = q.val; omega
  show k0_pay1 (F := Ideal) (xblk m c t) (ublk m c t) (vblk m c t) (ix2 p q)
      = updated (xarr m c) (uarr m c) (varr m c) (((cfg0.win 3).blk t).view.emb (ix2 p q))
  rw [hemb, updated_apply, Body.stored_apply, ublk_eq, vblk_eq]
  exact congrArg (fun row => rowThin row (uarr m c) (varr m c) q)
    (funext fun j => xblk_apply m c t p j _ rfl)

/-! ## The blocks tile the array -/

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v0).slice (win0_3.rect t)).set ↔ _
  rw [View.set_slice_whole, Rect.mem_set_unit]
  exact Iff.rfl

/-- Row `r` lies in the block of the point on row block `r / 512`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩
  have q0 : win0_3.index t (0 : Fin 2) = (i 0).val / 512 := ht
  obtain ⟨-, -, e3, -, -, -, -, -⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- THE ARRAY after the run is `updated` of the argument arrays. -/
theorem final (c : Dev nD) :
    (dats m 0 c).arrAt 3 cfg0.N = updated (m ((c : Thread nD τ).loc main_arg0)) (m ((c : Thread nD τ).loc main_arg1)) (m ((c : Thread nD τ).loc main_arg2)) :=
  (dats m 0 c).arrAt_eq_of_cover 3 (updated (xarr m c) (uarr m c) (varr m c)) (fun t _ => flushed_eq m c t) cover

/-! ## The run, read -/

/-- The kernel's run: the result array at `updated` of the arguments, the arguments unchanged. -/
theorem run : θ_run defs (onTc (τ := τ) (main (F := Ideal))) ⟨m, fun _ => 0, ρ⟩ fun r => ∀ c : Dev nD,
      r.2.mem ((c : Thread nD τ).loc main_v0) = updated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.FastWeights.Kernel

end
-- ==== Proof.RefValue.lean ====
/-
  The reference's result at one entry.

  The reference forms the square matrix `M = U Vᵀ` (`M j q = ∑ k < 4, U j k · V q k`, the transpose read at the swapped
  index), then `x M` (`(x M) p q = ∑ j < 4096, x p j · M j q`), scales by the word `1` and adds `x`.  Read at
  `(p, q)` that is row `p` of `x` updated through the square matrix, at column `q`.
-/
import proofs.«158593_j82094004896067_1_alg».proof.Proof.Gen.ReferenceIdeal.Read
import proofs.«158593_j82094004896067_1_alg».proof.Proof.Update

noncomputable section

open scoped BigOperators

namespace Cert.FastWeights.Ref

open Cert.ReferenceIdeal Cert.ReferenceIdeal.Gen Cert.ReferenceIdeal.Read Idealize.ShloMosaic Idealize.ShloMosaic.ValueIdx
  Cert.FastWeights

/-! ## The operand indices of the two products and of the transpose, by coordinates -/

theorem lidx_xM (p : Fin 8192) (q j : Fin 4096) : lidx_main_v2 (ix2 p q) j = ix2 p j :=
  funext fun a => Fin.ext (by match a with | ⟨0, _⟩ => rfl | ⟨1, _⟩ => rfl)
theorem ridx_xM (p : Fin 8192) (q j : Fin 4096) : ridx_main_v2 (ix2 p q) j = ix2 j q :=
  funext fun a => Fin.ext (by match a with | ⟨0, _⟩ => rfl | ⟨1, _⟩ => rfl)
theorem lidx_UVt (j q : Fin 4096) (k : Fin 4) : lidx_main_v1 (ix2 j q) k = ix2 j k :=
  funext fun a => Fin.ext (by match a with | ⟨0, _⟩ => rfl | ⟨1, _⟩ => rfl)
theorem ridx_UVt (j q : Fin 4096) (k : Fin 4) : ridx_main_v1 (ix2 j q) k = ix2 k q :=
  funext fun a => Fin.ext (by match a with | ⟨0, _⟩ => rfl | ⟨1, _⟩ => rfl)
theorem idx_Vt (k : Fin 4) (q : Fin 4096) : idx_main_v0 (ix2 k q) = ix2 q k :=
  funext fun a => Fin.ext (by match a with | ⟨0, _⟩ => rfl | ⟨1, _⟩ => rfl)

/-! ## The result at an entry -/

/-- Entry `(p, q)` of the reference's result is row `p` of `x`, updated through the square matrix, at column `q`. -/
theorem result_apply (x : (⟨S8192x4096, .f32⟩ : BufTy).Contents (Elt Ideal)) (U V : (⟨S4096x4, .f32⟩ : BufTy).Contents (Elt Ideal))
    (p : Fin 8192) (q : Fin 4096) :
    val_main_v5 (F := Ideal) x U V (ix2 p q) = rowDense (fun j => x (ix2 p j)) U V q := by
  unfold rowDense
  rw [val_main_v5_apply, val_main_v4_apply, val_main_v3_apply, val_main_cst_apply, val_main_v2_apply]
  simp only [lidx_xM, ridx_xM, val_main_v1_apply, lidx_UVt, ridx_UVt, val_main_v0_apply, idx_Vt]
  rfl

end Cert.FastWeights.Ref

end
-- ==== Proof.Finite.lean ====
/-
  What the precondition says: every entry of `x`, `U` and `V` is a real number.

  The predicate is `all(|x| < +∞) ∧ all(|U| < +∞) ∧ all(|V| < +∞)`.  On the extended reals `|a| = max a (-a)`, which is
  `+∞` at both infinities and a real elsewhere, so `|a| < +∞` holds exactly of the reals.
-/
import proofs.«158593_j82094004896067_1_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.FastWeights.Finite

open Idealize.ShloMosaic Idealize.ShloMosaic.ValueIdx Cert.Pre_finite_inputs

instance : Subsingleton S_.Idx := ⟨fun a b => funext fun d => d.elim0⟩

/-- The word the predicate compares against denotes `+∞`. -/
theorem inf_word : Ideal.ofBits .f32 0x7F800000#32 = ⊤ := by simp [Ideal.ofBits, Ideal.ieee]

/-- An extended real whose absolute value is below `+∞` is a real. -/
theorem real_of_abs_lt (a : EReal) (h : max a (-a) < ⊤) : ∃ r : ℝ, a = r := by
  induction a using EReal.rec with
  | bot => simp at h
  | top => simp at h
  | coe r => exact ⟨r, rfl⟩

/-- One entry's test `|a| < +∞`, as the predicate prints it, read back. -/
theorem real_of_test (a : Ideal .f32)
    (h : FloatOps.cmpf .olt (FloatOps.hostAbsf a) (Ideal.ofBits .f32 0x7F800000#32) = 1#1) : ∃ r : ℝ, (a : EReal) = r := by
  refine real_of_abs_lt a ?_
  rw [inf_word] at h
  have h' : Ideal.cmp .olt (max (a : EReal) (-(a : EReal))) ⊤ = 1#1 := h
  unfold Ideal.cmp at h'
  by_contra hn
  simp [hn] at h'

/-- The array-level test at one index is that entry's test, once the broadcast bound is read there. -/
theorem test_at {s : Shape} (y b : FVec Ideal s .f32) (i : s.Idx) (hb : b i = Ideal.ofBits .f32 0x7F800000#32)
    (e : cmpf .olt (Host.absf y) b i = 1#1) :
    FloatOps.cmpf .olt (FloatOps.hostAbsf (y i)) (Ideal.ofBits .f32 0x7F800000#32) = 1#1 := by
  rw [← hb]; exact e

variable [Facts]
open Facts

/-- Under the precondition every entry of the three arguments is a real. -/
theorem reals_of_pre (x : FVec Ideal S8192x4096 .f32) (U V : FVec Ideal S4096x4 .f32)
    (h : fn (F := Ideal) x U V = fun _ => 1#1) :
    (∀ i, ∃ r : ℝ, (x i : EReal) = r) ∧ (∀ i, ∃ r : ℝ, (U i : EReal) = r) ∧ (∀ i, ∃ r : ℝ, (V i : EReal) = r) := by
  have h0 := congrFun h ix0
  dsimp only [fn] at h0
  obtain ⟨hxu, hv⟩ := IntOp.andi_eq_one.1 h0
  obtain ⟨hx, hu⟩ := IntOp.andi_eq_one.1 hxu
  refine ⟨fun i => real_of_test _ ?_, fun i => real_of_test _ ?_, fun i => real_of_test _ ?_⟩
  · exact test_at x _ i (broadcastInDim_apply _ bcast_S_S8192x4096 _ i ix0 (fun a => a.elim0))
      (Host.reduce_andi_all _ _ _ _ ix0 hx i)
  · exact test_at U _ i (broadcastInDim_apply _ bcast_S_S4096x4 _ i ix0 (fun a => a.elim0))
      (Host.reduce_andi_all _ _ _ _ ix0 hu i)
  · exact test_at V _ i (broadcastInDim_apply _ bcast_S_S4096x4 _ i ix0 (fun a => a.elim0))
      (Host.reduce_andi_all _ _ _ _ ix0 hv i)

end Cert.FastWeights.Finite

end
-- ==== Proof.lean ====
/-
  The rank-4 fast-weight update `out = x + 1 · (x (U Vᵀ))`, computed by the kernel as `x + 1 · ((x U) Vᵀ)`.

  With `x : [8192, 4096]` and `U V : [4096, 4]`, the kernel streams `x` in 16 blocks of 512 rows, keeps `U` and `V`
  whole, and per block forms the thin product `t = x U` (512 × 4), then `t Vᵀ` (512 × 4096), both into zero
  accumulators, scales by the word `1` and adds the block.  The reference forms the square matrix `M = U Vᵀ`
  (4096 × 4096), then `x M`, scales by the same word and adds `x`.

  At the exact arithmetic of the extended reals an entry of either result depends on one row of `x`:
      kernel     out p q = x p q + 1 · ∑ k < 4, (∑ j < 4096, x p j · U j k) · V q k      (`rowThin`),
      reference  out p q = x p q + 1 · ∑ j < 4096, x p j · (∑ k < 4, U j k · V q k)      (`rowDense`).
  Both inner expressions are the double sum of `x p j · U j k · V q k`; moving `V q k` into the sum over `j` and
  `x p j` out of the sum over `k` is distributivity, which on the extended reals needs the entries to be real — and
  the precondition says exactly that every entry of `x`, `U` and `V` is finite (`Finite.reals_of_pre`), whence
  `rowThin_eq_rowDense`.  The scale is the same word on both sides and is never evaluated.

  The kernel's result array is `updated` of the arguments (`Kernel.run`: each grid point writes back its block of
  that one function, and the 16 blocks tile the rows); the reference's run ends at its operations' term, which read at
  an entry is `rowDense` of the entry's row (`Ref.result_apply`).  The frames are the generated ones (the
  reference's is its run with the result dropped); the idealized kernel is the kernel's own text read at the exact
  instance, so nothing is owed for it.
-/
import proofs.«158593_j82094004896067_1_alg».proof.Defs
import proofs.«158593_j82094004896067_1_alg».proof.Proof.Gen.Kernel
import proofs.«158593_j82094004896067_1_alg».proof.Proof.Gen.Kernel.Skeleton
import proofs.«158593_j82094004896067_1_alg».proof.Proof.Gen.Kernel.Launch
import proofs.«158593_j82094004896067_1_alg».proof.Proof.Gen.Kernel.Points
import proofs.«158593_j82094004896067_1_alg».proof.Proof.Gen.Kernel.Frame
import proofs.«158593_j82094004896067_1_alg».proof.Proof.Gen.KernelIdeal
import proofs.«158593_j82094004896067_1_alg».proof.Proof.Gen.KernelIdeal.Skeleton
import proofs.«158593_j82094004896067_1_alg».proof.Proof.Gen.KernelIdeal.Launch
import proofs.«158593_j82094004896067_1_alg».proof.Proof.Gen.KernelIdeal.Points
import proofs.«158593_j82094004896067_1_alg».proof.Proof.Gen.KernelIdeal.Frame
import proofs.«158593_j82094004896067_1_alg».proof.Proof.Gen.ReferenceIdeal
import proofs.«158593_j82094004896067_1_alg».proof.Proof.Gen.Pre_finite_inputs
import proofs.«158593_j82094004896067_1_alg».proof.Proof.Gen.KernelIdeal.Value
import proofs.«158593_j82094004896067_1_alg».proof.Proof.Gen.ReferenceIdeal.Run
import proofs.«158593_j82094004896067_1_alg».proof.Proof.Gen.ReferenceIdeal.Read
import proofs.«158593_j82094004896067_1_alg».proof.Proof.KernelValue
import proofs.«158593_j82094004896067_1_alg».proof.Proof.RefValue
import proofs.«158593_j82094004896067_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.FastWeights

/-- The two results agree entry by entry once every entry of the arguments is a real: the kernel's `updated` is
    row by row `rowThin`, the reference's term row by row `rowDense`. -/
theorem reference_eq_updated (x : (⟨Cert.ReferenceIdeal.S8192x4096, .f32⟩ : BufTy).Contents (Elt Ideal))
    (U V : (⟨Cert.ReferenceIdeal.S4096x4, .f32⟩ : BufTy).Contents (Elt Ideal))
    (hx : ∀ i, ∃ r : ℝ, (x i : EReal) = r) (hu : ∀ i, ∃ r : ℝ, (U i : EReal) = r) (hv : ∀ i, ∃ r : ℝ, (V i : EReal) = r) :
    Cert.ReferenceIdeal.Read.val_main_v5 (F := Ideal) x U V = updated x U V := by
  funext i
  obtain ⟨p, q, rfl⟩ : ∃ (p : Fin 8192) (q : Fin 4096), i = ix2 p q := ⟨i 0, i 1, eq_ix2 i⟩
  rw [Ref.result_apply, updated_apply]
  exact (rowThin_eq_rowDense _ U V q (fun j => hx _) hu hv).symm

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2)
      (Cert.ReferenceIdeal.Value.run (F := Ideal) m ρ)
  · -- both runs end at `updated` of the kernel's arguments
    intro m ρ m' ρ' hpre hagree
    refine ⟨fun c => updated (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Kernel.run m ρ, ?_⟩
    refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v5_eq]
    obtain ⟨hx, hu, hv⟩ := @Finite.reals_of_pre Cert.Pre_finite_inputs.Gen.facts _ _ _ (hpre c)
    exact reference_eq_updated _ _ _ hx hu hv⟩

end Cert.Proof

end
